-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S3x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S1x128x128 : Shape := ⟨3, ![1, 128, 128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 15
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S1x128x128, .f32⟩
  | .hbm, ⟨5, _⟩ => ⟨S128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S400x128, .f32⟩
  | .local _ .vmem, ⟨13, _⟩ => ⟨S400x128, .f32⟩
  | .local _ .vmem, ⟨14, _⟩ => ⟨S400x128, .f32⟩
  | .local _ .vmem, ⟨15, _⟩ => ⟨S400x128, .f32⟩
  | .local _ .vmem, ⟨16, _⟩ => ⟨S128x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8_0 : Ref sig .tc := ⟨.hbm, 12, rfl⟩
abbrev main_call0_v8_1 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8_0) S400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8_1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v8_1) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S10000 : Shape := ⟨1, ![10000]⟩
abbrev S10000x1 : Shape := ⟨2, ![10000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S1x128x128, .f32⟩
  | .hbm, ⟨11, _⟩ => ⟨S128x128, .f32⟩
  | .hbm, ⟨12, _⟩ => ⟨S10000x128, .f32⟩
  | .hbm, ⟨13, _⟩ => ⟨S1x128x128, .f32⟩
  | .hbm, ⟨14, _⟩ => ⟨S128x128, .f32⟩
  | .hbm, ⟨15, _⟩ => ⟨S10000x128, .f32⟩
  | .hbm, ⟨16, _⟩ => ⟨S10000x128, .f32⟩
  | .hbm, ⟨17, _⟩ => ⟨S1x128x128, .f32⟩
  | .hbm, ⟨18, _⟩ => ⟨S128x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x1, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Payload.lean ====
/-
  The two kernel bodies read at one element, over the extended reals.

  First pass, on a block of 400 rows of the operator g: the block of T1 = g x has entry (p, l) equal to the sum over q
  of g (p, q) x (q, l), and each of the two stored products with a 128 x 128 weight matrix w has entry (p, j) equal to
  the sum over l of T1 (p, l) w (l, j).

  Second pass, on a block of 400 rows: the pre-activation entry (p, c) is
      ((2 * sum_k g (p, k) u (k, c)) + v (p, c)) + sum_k x (p, k) wd (k, c) + b (0, c),
  and the stored value is pre (p, j) - (log (sum_c exp (pre (p, c) - m p)) + m p) with m p the largest entry of row p
  of pre, taken from minus infinity.
-/
import proofs.«139525_g1778116460694_cont_7to1_379_2_alg».proof.Proof.Gen.KernelIdeal.Skeleton
import proofs.«139525_g1778116460694_cont_7to1_379_2_alg».proof.Proof.LibBlocks
import proofs.«139525_g1778116460694_cont_7to1_379_2_alg».proof.Proof.LibColumn
import Idealize.ShloMosaic.PureOps.Ideal.Laws
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Proof.Column

/-- The two contractions of the bodies are plain rows-by-columns products. -/
theorem dotA_plain : dot_S400x10000_S10000x128_S400x128_1_0_0_1_n_n = DotDims.plain 400 10000 128 := rfl
theorem dotB_plain : dot_S400x128_S128x128_S400x128_1_0_0_1_n_n = DotDims.plain 400 128 128 := rfl

/-! ## First pass -/

/-- Entry (p, l) of the block of g x. -/
theorem pay1_apply (v0 : Vec Ideal S400x10000 .f32) (v1 : Vec Ideal S10000x128 .f32) (p : Fin 400) (l : Fin 128) :
    k0_pay1 (F := Ideal) v0 v1 (ix2 p l) = ∑ q : Fin 10000, v0 (ix2 p q) * v1 (ix2 q l) := by
  unfold k0_pay1
  exact Cert.LibBlocks.matmul_plain_apply _ dotA_plain none v0 v1 p l

/-- Entry (p, j) of the block of (g x) w, for the weight matrix stored through the first output. -/
theorem pay2_apply (v0 : Vec Ideal S400x10000 .f32) (v1 : Vec Ideal S10000x128 .f32) (v3 : Vec Ideal S128x128 .f32) (p : Fin 400) (j : Fin 128) :
    k0_pay2 (F := Ideal) v0 v1 v3 (ix2 p j) = ∑ l : Fin 128, (∑ q : Fin 10000, v0 (ix2 p q) * v1 (ix2 q l)) * v3 (ix2 l j) := by
  unfold k0_pay2
  refine (Cert.LibBlocks.matmul_plain_apply _ dotB_plain none _ _ p j).trans ?_
  refine Finset.sum_congr rfl fun l _ => ?_
  rw [pay1_apply, shapeCast_self]

/-- Entry (p, j) of the block of (g x) w, for the weight matrix stored through the second output. -/
theorem pay3_apply (v0 : Vec Ideal S400x10000 .f32) (v1 : Vec Ideal S10000x128 .f32) (v7 : Vec Ideal S128x128 .f32) (p : Fin 400) (j : Fin 128) :
    k0_pay3 (F := Ideal) v0 v1 v7 (ix2 p j) = ∑ l : Fin 128, (∑ q : Fin 10000, v0 (ix2 p q) * v1 (ix2 q l)) * v7 (ix2 l j) := by
  unfold k0_pay3
  refine (Cert.LibBlocks.matmul_plain_apply _ dotB_plain none _ _ p j).trans ?_
  refine Finset.sum_congr rfl fun l _ => ?_
  rw [pay1_apply, shapeCast_self]

/-! ## Second pass: the row reductions -/

/-- Putting the coordinate k back on axis 1 of a row index p gives (p, k). -/
theorem lift_row (hr : S400x128.Reduces [1] S400) (p : Fin 400) (k : Fin 128) : hr.lift (ix1 p) k = ix2 p k := by
  funext a
  apply Fin.ext
  match a with
  | ⟨0, _⟩ => rfl
  | ⟨1, _⟩ => rfl

/-- The largest entry of row p, from minus infinity. -/
def rowMax (w : FVec Ideal S400x128 .f32) (p : Fin 400) : EReal :=
  (Finset.univ : Finset (Fin 128)).fold max (Ideal.ofBits .f32 0xFF800000#32) (fun c => w (ix2 p c))

section Rows

variable (hr : S400x128.Reduces [1] S400) (hc : S400.ShapeCasts S400x1) (hb : S400x1.Broadcasts S400x128)

/-- The column of row maxima at (p, u). -/
theorem maxcol_apply (w : FVec Ideal S400x128 .f32) (p : Fin 400) (u : Fin 1) :
    shapeCast S400x1 (multiReduction .maximumf [1] S400 w 0xFF800000#32 hr (.inl rfl) rfl) hc (ix2 p u) = rowMax w p := by
  rw [shapeCast_a_a1_apply]
  refine (Ideal.multiReduction_maximumf_single w _ hr _ _ (ix1 p)).trans ?_
  exact congrArg (fun f => (Finset.univ : Finset (Fin 128)).fold max (Ideal.ofBits .f32 0xFF800000#32) f)
    (funext fun c => congrArg w (lift_row hr p c))

/-- The column of row sums at (p, u). -/
theorem sumcol_apply (w : FVec Ideal S400x128 .f32) (p : Fin 400) (u : Fin 1) :
    shapeCast S400x1 (multiReduction .add [1] S400 w 0x00000000#32 hr (.inl rfl) rfl) hc (ix2 p u) = ∑ c : Fin 128, w (ix2 p c) := by
  rw [shapeCast_a_a1_apply]
  refine (Ideal.multiReduction_add_single w _ hr _ _ (ix1 p)).trans ?_
  exact Finset.sum_congr rfl fun c _ => congrArg w (lift_row hr p c)

/-- The log-softmax epilogue at (p, j): the entry minus (the logarithm of the row's sum of shifted exponentials plus the shift). -/
theorem tail_apply (w : FVec Ideal S400x128 .f32) (p : Fin 400) (j : Fin 128) :
    subf w (broadcastTo S400x128 (addf (log (shapeCast S400x1 (multiReduction .add [1] S400
        (exp (subf w (broadcastTo S400x128 (shapeCast S400x1 (multiReduction .maximumf [1] S400 w 0xFF800000#32 hr (.inl rfl) rfl) hc) hb)))
        0x00000000#32 hr (.inl rfl) rfl) hc))
      (shapeCast S400x1 (multiReduction .maximumf [1] S400 w 0xFF800000#32 hr (.inl rfl) rfl) hc)) hb) (ix2 p j)
      = w (ix2 p j) - (Ideal.log (∑ c : Fin 128, Ideal.exp (w (ix2 p c) - rowMax w p)) + rowMax w p) := by
  rw [subf_apply, broadcastTo_a1_ab_apply, addf_apply, maxcol_apply]
  show w (ix2 p j) - (Ideal.log (shapeCast S400x1 (multiReduction (F := Ideal) .add [1] S400 _ 0x00000000#32 hr (.inl rfl) rfl) hc (ix2 p (0 : Fin 1))) + rowMax w p) = _
  rw [sumcol_apply]
  refine congrArg (fun s => w (ix2 p j) - (Ideal.log s + rowMax w p)) (Finset.sum_congr rfl fun c _ => ?_)
  show Ideal.exp (subf w _ (ix2 p c)) = _
  rw [subf_apply, broadcastTo_a1_ab_apply, maxcol_apply]

end Rows

/-! ## Second pass: the pre-activation -/

/-- Entry (p, c) of the block's pre-activation, from the operands' entries. -/
def preBlk (v0 : FVec Ideal S400x10000 .f32) (v1 : FVec Ideal S10000x128 .f32) (v6 v9 : FVec Ideal S400x128 .f32)
    (v10 : FVec Ideal S128x128 .f32) (v14 : FVec Ideal S1x128 .f32) : FVec Ideal S400x128 .f32 := fun i =>
  ((Ideal.ofBits .f32 0x40000000#32 * ∑ k : Fin 10000, v0 (ix2 (i 0) k) * v1 (ix2 k (i 1))) + v6 i)
    + (∑ k : Fin 128, v9 (ix2 (i 0) k) * v10 (ix2 k (i 1))) + v14 (ix2 (0 : Fin 1) (i 1))

/-- The vector the body reduces over rows is that pre-activation. -/
theorem pre_eq (hb1 : S1x128.Broadcasts S400x128) (v0 : FVec Ideal S400x10000 .f32) (v1 : FVec Ideal S10000x128 .f32) (v6 v9 : FVec Ideal S400x128 .f32)
    (v10 : FVec Ideal S128x128 .f32) (v14 : FVec Ideal S1x128 .f32) :
    addf (F := Ideal) (addf (addf (mulf (broadcast S400x128 (Scalar.ofBits (F := Ideal) .f32 0x40000000#32))
        (matmul dot_S400x10000_S10000x128_S400x128_1_0_0_1_n_n none v0 (shapeCast S10000x128 v1 shapeCasts_S10000x128_S10000x128) (constant S400x128 .f32 0x00000000#32)))
        (shapeCast S400x128 v6 shapeCasts_S400x128_S400x128))
        (matmul dot_S400x128_S128x128_S400x128_1_0_0_1_n_n none v9 (shapeCast S128x128 v10 shapeCasts_S128x128_S128x128) (constant S400x128 .f32 0x00000000#32)))
      (broadcastTo S400x128 (shapeCast S1x128 v14 shapeCasts_S1x128_S1x128) hb1)
      = preBlk v0 v1 v6 v9 v10 v14 := by
  funext i
  obtain ⟨p, c, rfl⟩ : ∃ (p : Fin 400) (c : Fin 128), i = ix2 p c := ⟨i 0, i 1, eq_ix2 i⟩
  rw [addf_apply, addf_apply, addf_apply, mulf_apply, shapeCast_self, shapeCast_self, shapeCast_self, shapeCast_self]
  rw [broadcastTo_apply v14 hb1 (ix2 p c) (ix2 (0 : Fin 1) c) (fun a => by
    match a with
    | ⟨0, _⟩ => rfl
    | ⟨1, _⟩ => show c.val = if (128 : Nat) = 1 then 0 else c.val; rw [if_neg (by decide)])]
  show ((Ideal.ofBits .f32 0x40000000#32 * FloatOps.matmul _ none v0 v1 (constant S400x128 .f32 0x00000000#32) (ix2 p c)) + v6 (ix2 p c))
      + FloatOps.matmul _ none v9 v10 (constant S400x128 .f32 0x00000000#32) (ix2 p c) + v14 (ix2 (0 : Fin 1) c) = _
  rw [Cert.LibBlocks.matmul_plain_apply _ dotA_plain, Cert.LibBlocks.matmul_plain_apply _ dotB_plain]
  rfl

/-- The second body's stored value at (p, j). -/
theorem pay_out_apply (v0 : Vec Ideal S400x10000 .f32) (v1 : Vec Ideal S10000x128 .f32) (v6 v9 : Vec Ideal S400x128 .f32)
    (v10 : Vec Ideal S128x128 .f32) (v14 : Vec Ideal S1x128 .f32) (p : Fin 400) (j : Fin 128) :
    k1_pay1 (F := Ideal) v0 v1 v6 v9 v10 v14 (ix2 p j)
      = preBlk v0 v1 v6 v9 v10 v14 (ix2 p j)
        - (Ideal.log (∑ c : Fin 128, Ideal.exp (preBlk v0 v1 v6 v9 v10 v14 (ix2 p c) - rowMax (preBlk v0 v1 v6 v9 v10 v14) p))
          + rowMax (preBlk v0 v1 v6 v9 v10 v14) p) := by
  unfold k1_pay1
  dsimp only
  rw [pre_eq]
  exact tail_apply _ _ _ _ p j

end Cert.KernelIdeal.Payload

end
-- ==== Proof.Algebra.lean ====
/-
  The algebra behind a Chebyshev graph convolution of order three followed by a row-wise log-softmax.

  With T1 = g x (g the [n, n] operator, x the [n, d] features) the layer's pre-activation is
      x W0 + T1 W1 + (2 g T1 - x) W2 + b.
  Regrouped, it is
      2 g (T1 W2) + T1 W1 + x (W0 - W2) + b:
  the product g (T1 W2) is (g T1) W2 by exchanging the two sums and moving a factor across a sum, and
  x (W0 - W2) is x W0 - x W2 by distributivity. Both steps are laws of the real numbers that fail at the
  infinities of the extended reals, so the entries are taken to be real numbers, the extended-real
  expressions are shown to be the images of the real ones, and the identity is proved over the reals.

  The log-softmax of a row p with maximum m is written either as (p j - m) - log (sum_c exp (p c - m)) or as
  p j - (log (sum_c exp (p c - m)) + m). For real p and m every exponential is a positive real, so their sum
  is a positive real, its logarithm is a real, and the two forms are the same real number.
-/
import Idealize.ShloMosaic.PureOps.Ideal

noncomputable section

open scoped BigOperators

namespace Cert.Cheb

open Idealize.ShloMosaic

/-- A finite sum of reals, taken in the extended reals, is the sum of the images. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Pre

variable {ι κ : Type} [Fintype ι] [Fintype κ]

/-- The regrouped pre-activation over the reals: 2 g ((g x) W2) + (g x) W1 + x (W0 - W2) + b. -/
def preKR (g : ι → ι → ℝ) (x : ι → κ → ℝ) (W0 W1 W2 : κ → κ → ℝ) (b : κ → ℝ) (i : ι) (j : κ) : ℝ :=
  ((2 * ∑ k, g i k * (∑ l, (∑ p, g k p * x p l) * W2 l j)) + ∑ l, (∑ p, g i p * x p l) * W1 l j)
    + (∑ k, x i k * (W0 k j - W2 k j)) + b j

/-- The pre-activation over the reals as the recurrence gives it: x W0 + (g x) W1 + (2 g (g x) - x) W2 + b. -/
def preRR (g : ι → ι → ℝ) (x : ι → κ → ℝ) (W0 W1 W2 : κ → κ → ℝ) (b : κ → ℝ) (i : ι) (j : κ) : ℝ :=
  (((∑ k, x i k * W0 k j) + ∑ l, (∑ p, g i p * x p l) * W1 l j)
    + ∑ l, (2 * (∑ k, g i k * (∑ p, g k p * x p l)) - x i l) * W2 l j) + b j

/-- The regrouped pre-activation computed in the extended reals, the factor two a parameter. -/
def preK (two : EReal) (g : ι → ι → EReal) (x : ι → κ → EReal) (W0 W1 W2 : κ → κ → EReal) (b : κ → EReal) (i : ι) (j : κ) : EReal :=
  ((two * ∑ k, g i k * (∑ l, (∑ p, g k p * x p l) * W2 l j)) + ∑ l, (∑ p, g i p * x p l) * W1 l j)
    + (∑ k, x i k * (W0 k j - W2 k j)) + b j

/-- The recurrence's pre-activation computed in the extended reals. -/
def preR (two : EReal) (g : ι → ι → EReal) (x : ι → κ → EReal) (W0 W1 W2 : κ → κ → EReal) (b : κ → EReal) (i : ι) (j : κ) : EReal :=
  (((∑ k, x i k * W0 k j) + ∑ l, (∑ p, g i p * x p l) * W1 l j)
    + ∑ l, (two * (∑ k, g i k * (∑ p, g k p * x p l)) - x i l) * W2 l j) + b j

/-- Over the reals the two groupings agree. -/
theorem preK_eq_preR_real (g : ι → ι → ℝ) (x : ι → κ → ℝ) (W0 W1 W2 : κ → κ → ℝ) (b : κ → ℝ) (i : ι) (j : κ) :
    preKR g x W0 W1 W2 b i j = preRR g x W0 W1 W2 b i j := by
  unfold preKR preRR
  have h1 : ∑ k, g i k * (∑ l, (∑ p, g k p * x p l) * W2 l j)
      = ∑ l, (∑ k, g i k * (∑ p, g k p * x p l)) * W2 l j := by
    calc ∑ k, g i k * (∑ l, (∑ p, g k p * x p l) * W2 l j)
        = ∑ k, ∑ l, g i k * ((∑ p, g k p * x p l) * W2 l j) := by
          apply Finset.sum_congr rfl; intro k _; rw [Finset.mul_sum]
      _ = ∑ l, ∑ k, g i k * ((∑ p, g k p * x p l) * W2 l j) := Finset.sum_comm
      _ = ∑ l, (∑ k, g i k * (∑ p, g k p * x p l)) * W2 l j := by
          apply Finset.sum_congr rfl; intro l _; rw [Finset.sum_mul]
          apply Finset.sum_congr rfl; intro k _; ring
  have h2 : ∑ k, x i k * (W0 k j - W2 k j) = ∑ k, x i k * W0 k j - ∑ k, x i k * W2 k j := by
    simp_rw [mul_sub, Finset.sum_sub_distrib]
  have h3 : ∑ l, (2 * (∑ k, g i k * (∑ p, g k p * x p l)) - x i l) * W2 l j
      = 2 * ∑ l, (∑ k, g i k * (∑ p, g k p * x p l)) * W2 l j - ∑ l, x i l * W2 l j := by
    simp_rw [sub_mul, Finset.sum_sub_distrib, mul_assoc, ← Finset.mul_sum]
  rw [h1, h2, h3]
  ring

/-- The regrouped pre-activation of real entries, computed in the extended reals, is the image of the real one. -/
theorem preK_coe (two : EReal) (h2 : two = ((2 : ℝ) : EReal)) (g : ι → ι → ℝ) (x : ι → κ → ℝ) (W0 W1 W2 : κ → κ → ℝ) (b : κ → ℝ) (i : ι) (j : κ) :
    preK two (fun a c => (g a c : EReal)) (fun a c => (x a c : EReal)) (fun a c => (W0 a c : EReal)) (fun a c => (W1 a c : EReal))
      (fun a c => (W2 a c : EReal)) (fun c => (b c : EReal)) i j = ((preKR g x W0 W1 W2 b i j : ℝ) : EReal) := by
  subst h2
  unfold preK preKR
  simp only [coe_sum, EReal.coe_mul, EReal.coe_add, EReal.coe_sub]

/-- The same for the recurrence's grouping. -/
theorem preR_coe (two : EReal) (h2 : two = ((2 : ℝ) : EReal)) (g : ι → ι → ℝ) (x : ι → κ → ℝ) (W0 W1 W2 : κ → κ → ℝ) (b : κ → ℝ) (i : ι) (j : κ) :
    preR two (fun a c => (g a c : EReal)) (fun a c => (x a c : EReal)) (fun a c => (W0 a c : EReal)) (fun a c => (W1 a c : EReal))
      (fun a c => (W2 a c : EReal)) (fun c => (b c : EReal)) i j = ((preRR g x W0 W1 W2 b i j : ℝ) : EReal) := by
  subst h2
  unfold preR preRR
  simp only [coe_sum, EReal.coe_mul, EReal.coe_add, EReal.coe_sub]

/-- For entries that are real numbers the two groupings agree in the extended reals, and the common value is a real number. -/
theorem preK_eq_preR (two : EReal) (h2 : two = ((2 : ℝ) : EReal)) (g : ι → ι → EReal) (x : ι → κ → EReal) (W0 W1 W2 : κ → κ → EReal) (b : κ → EReal)
    (hg : ∀ a c, ∃ r : ℝ, g a c = (r : EReal)) (hx : ∀ a c, ∃ r : ℝ, x a c = (r : EReal))
    (h0 : ∀ a c, ∃ r : ℝ, W0 a c = (r : EReal)) (h1 : ∀ a c, ∃ r : ℝ, W1 a c = (r : EReal)) (hw2 : ∀ a c, ∃ r : ℝ, W2 a c = (r : EReal))
    (hb : ∀ c, ∃ r : ℝ, b c = (r : EReal)) (i : ι) (j : κ) :
    preK two g x W0 W1 W2 b i j = preR two g x W0 W1 W2 b i j ∧ ∃ r : ℝ, preR two g x W0 W1 W2 b i j = (r : EReal) := by
  choose gr hgr using hg
  choose xr hxr using hx
  choose w0 hw0 using h0
  choose w1 hw1 using h1
  choose w2 hw2' using hw2
  choose br hbr using hb
  obtain rfl : g = fun a c => (gr a c : EReal) := funext fun a => funext fun c => hgr a c
  obtain rfl : x = fun a c => (xr a c : EReal) := funext fun a => funext fun c => hxr a c
  obtain rfl : W0 = fun a c => (w0 a c : EReal) := funext fun a => funext fun c => hw0 a c
  obtain rfl : W1 = fun a c => (w1 a c : EReal) := funext fun a => funext fun c => hw1 a c
  obtain rfl : W2 = fun a c => (w2 a c : EReal) := funext fun a => funext fun c => hw2' a c
  obtain rfl : b = fun c => (br c : EReal) := funext fun c => hbr c
  rw [preK_coe two h2, preR_coe two h2, preK_eq_preR_real]
  exact ⟨rfl, _, rfl⟩

end Pre

section Softmax

variable {κ : Type} [Fintype κ]

/-- The largest entry of a nonempty finite family of real numbers, taken in the extended reals from the bottom element, is a real number. -/
theorem fold_max_real [Nonempty κ] (P : κ → EReal) (hP : ∀ c, ∃ r : ℝ, P c = (r : EReal)) :
    ∃ r : ℝ, (Finset.univ : Finset κ).fold max ⊥ P = (r : EReal) := by
  obtain ⟨c, -, hc⟩ := Finset.exists_mem_eq_sup (Finset.univ : Finset κ) Finset.univ_nonempty P
  obtain ⟨r, hr⟩ := hP c
  exact ⟨r, (show (Finset.univ : Finset κ).fold max ⊥ P = Finset.univ.sup P from rfl).trans (hc.trans hr)⟩

/-- The two ways of writing a row's log-softmax agree when the row and the shift are real numbers. -/
theorem logsoftmax_eq [Nonempty κ] (P : κ → EReal) (hP : ∀ c, ∃ r : ℝ, P c = (r : EReal)) (M : EReal) (hM : ∃ r : ℝ, M = (r : EReal)) (j : κ) :
    P j - (Ideal.log (∑ c, Ideal.exp (P c - M)) + M) = (P j - M) - Ideal.log (∑ c, Ideal.exp (P c - M)) := by
  choose pr hpr using hP
  obtain ⟨mr, rfl⟩ := hM
  obtain rfl : P = fun c => (pr c : EReal) := funext hpr
  have hS : (∑ c, Ideal.exp ((pr c : EReal) - (mr : EReal))) = ((∑ c, Real.exp (pr c - mr) : ℝ) : EReal) := by
    rw [coe_sum]
    refine Finset.sum_congr rfl fun c _ => ?_
    rw [← EReal.coe_sub, Ideal.exp_coe]
  have hpos : 0 < ∑ c, Real.exp (pr c - mr) :=
    Finset.sum_pos (fun c _ => Real.exp_pos _) Finset.univ_nonempty
  rw [hS, Ideal.log_coe, if_neg (not_le.mpr hpos)]
  rw [← EReal.coe_add, ← EReal.coe_sub, ← EReal.coe_sub, ← EReal.coe_sub]
  congr 1
  ring

end Softmax

end Cert.Cheb

end
-- ==== Proof.Spec.lean ====
/-
  The result of the layer as one function of the four argument arrays, in its two spellings, and their agreement.

  The arrays: g [10000, 10000], x [10000, 128], W [3, 128, 128] (W0, W1, W2 its three slices), b [128]. The
  pre-activation is read in the regrouped form 2 g ((g x) W2) + (g x) W1 + x (W0 - W2) + b and in the recurrence's form
  x W0 + (g x) W1 + (2 g (g x) - x) W2 + b; the row-wise log-softmax of a pre-activation P with row maximum m is read
  as P - (log (sum exp (P - m)) + m) and as (P - m) - log (sum exp (P - m)). On arrays of real numbers the two
  spellings give one array.
-/
import proofs.«139525_g1778116460694_cont_7to1_379_2_alg».proof.Proof.Algebra
import Idealize.ShloMosaic.Lib.ValueIdx

noncomputable section

open scoped BigOperators

namespace Cert.Cheb

open Idealize.ShloMosaic Idealize.ShloMosaic.ValueIdx

abbrev SG : Shape := ⟨2, ![10000, 10000]⟩
abbrev SX : Shape := ⟨2, ![10000, 128]⟩
abbrev SW : Shape := ⟨3, ![3, 128, 128]⟩
abbrev SB : Shape := ⟨1, ![128]⟩

/-- The f32 word of 2.0 denotes the real number 2. -/
theorem ofBits_two : Ideal.ofBits .f32 0x40000000#32 = ((2 : ℝ) : EReal) := by
  simp [Ideal.ofBits, Ideal.ieee, -EReal.coe_mul]; norm_num

/-- The f32 word of minus infinity denotes the bottom element. -/
theorem ofBits_neg_inf : Ideal.ofBits .f32 0xFF800000#32 = (⊥ : EReal) := by
  simp [Ideal.ofBits, Ideal.ieee]

/-- The f32 word of plus infinity denotes the top element. -/
theorem ofBits_pos_inf : Ideal.ofBits .f32 0x7F800000#32 = (⊤ : EReal) := by
  simp [Ideal.ofBits, Ideal.ieee]

/-- The largest entry of row i, from the bottom element. -/
def rowMaxA (P : Fin 10000 → Fin 128 → EReal) (i : Fin 10000) : EReal :=
  (Finset.univ : Finset (Fin 128)).fold max ⊥ (P i)

/-- Log-softmax of row i at column j, the shift added back to the logarithm. -/
def outK (P : Fin 10000 → Fin 128 → EReal) (i : Fin 10000) (j : Fin 128) : EReal :=
  P i j - (Ideal.log (∑ c, Ideal.exp (P i c - rowMaxA P i)) + rowMaxA P i)

/-- Log-softmax of row i at column j, the shift taken off the entry first. -/
def outR (P : Fin 10000 → Fin 128 → EReal) (i : Fin 10000) (j : Fin 128) : EReal :=
  (P i j - rowMaxA P i) - Ideal.log (∑ c, Ideal.exp (P i c - rowMaxA P i))

variable (g : SG.Idx → EReal) (x : SX.Idx → EReal) (W : SW.Idx → EReal) (b : SB.Idx → EReal)

/-- The regrouped pre-activation of the argument arrays. -/
def preKA : Fin 10000 → Fin 128 → EReal :=
  preK (Ideal.ofBits .f32 0x40000000#32) (fun a c => g (ix2 a c)) (fun a c => x (ix2 a c))
    (fun a c => W (ix3 (0 : Fin 3) a c)) (fun a c => W (ix3 (1 : Fin 3) a c)) (fun a c => W (ix3 (2 : Fin 3) a c)) (fun c => b (ix1 c))

/-- The recurrence's pre-activation of the argument arrays. -/
def preRA : Fin 10000 → Fin 128 → EReal :=
  preR (Ideal.ofBits .f32 0x40000000#32) (fun a c => g (ix2 a c)) (fun a c => x (ix2 a c))
    (fun a c => W (ix3 (0 : Fin 3) a c)) (fun a c => W (ix3 (1 : Fin 3) a c)) (fun a c => W (ix3 (2 : Fin 3) a c)) (fun c => b (ix1 c))

/-- On arrays of real numbers the kernel's spelling of the result and the reference's are one array. -/
theorem outK_eq_outR (hg : ∀ i, ∃ r : ℝ, g i = (r : EReal)) (hx : ∀ i, ∃ r : ℝ, x i = (r : EReal))
    (hW : ∀ i, ∃ r : ℝ, W i = (r : EReal)) (hb : ∀ i, ∃ r : ℝ, b i = (r : EReal)) (i : Fin 10000) (j : Fin 128) :
    outK (preKA g x W b) i j = outR (preRA g x W b) i j := by
  have hp : ∀ a c, preKA g x W b a c = preRA g x W b a c ∧ ∃ r : ℝ, preRA g x W b a c = (r : EReal) := fun a c =>
    preK_eq_preR _ ofBits_two _ _ _ _ _ _ (fun _ _ => hg _) (fun _ _ => hx _) (fun _ _ => hW _) (fun _ _ => hW _) (fun _ _ => hW _)
      (fun _ => hb _) a c
  have he : preKA g x W b = preRA g x W b := funext fun a => funext fun c => (hp a c).1
  rw [he]
  unfold outK outR
  exact logsoftmax_eq (preRA g x W b i) (fun c => (hp i c).2) (rowMaxA (preRA g x W b) i)
    (fold_max_real (preRA g x W b i) fun c => (hp i c).2) j

end Cert.Cheb

end
-- ==== Proof.Forms.lean ====
/-
  The arrays the two programs leave, in the spelling each program computes them, set beside the common specification.

  The kernel's spelling: u = (g x) W2 and v = (g x) W1 are arrays of their own, the weight difference W0 - W2 is a matrix
  and the bias a 1 x 128 row; the pre-activation is ((2 * g u) + v) + x (W0 - W2) + b and the result its row-wise
  log-softmax with the shift added back to the logarithm, the row maximum taken from the word of minus infinity.
  Entry by entry that is the specification's regrouped pre-activation and its log-softmax, because a slice of W read
  as a matrix has entry (l, j) equal to W (k, l, j), and the bias row has entry (0, j) equal to b j.
-/
import proofs.«139525_g1778116460694_cont_7to1_379_2_alg».proof.Proof.Spec
import Idealize.ShloMosaic.Lib.ValueIdx
import Idealize.ShloMosaic.Lib.Pipeline.Value
import Idealize.ShloMosaic.PureOps.Reduce

noncomputable section

open scoped BigOperators

namespace Cert.Cheb

open Idealize.ShloMosaic Idealize.ShloMosaic.ValueIdx

abbrev SM : Shape := ⟨2, ![128, 128]⟩
abbrev SR : Shape := ⟨2, ![1, 128]⟩
abbrev SS : Shape := ⟨3, ![1, 128, 128]⟩

/-! ## Layout facts -/

/-- Slice k of a [3, 128, 128] array, recast as a 128 x 128 matrix, has entry (l, j) equal to the array's (k, l, j). -/
theorem slice_mat_apply {α : Type} (W : SW.Idx → α) (o : Nat) (k : Fin 3) (ho : o = k.val) (hs : SW.Slices ![o, 0, 0] SS)
    (hc : SS.ShapeCasts SM) (l j : Fin 128) :
    shapeCast SM (extractStridedSlice SS ![o, 0, 0] W hs) hc (ix2 l j) = W (ix3 k l j) := by
  rw [shapeCast_apply _ hc (ix2 l j) (ix3 (0 : Fin 1) l j) (by
    rw [Shape.rowMajor_val_three, Shape.rowMajor_val_two]
    show (0 * 128 + l.val) * 128 + j.val = l.val * 128 + j.val
    omega)]
  exact extractStridedSlice_apply ![o, 0, 0] W hs (ix3 (0 : Fin 1) l j) (ix3 k l j) (fun a => match a with
    | ⟨0, _⟩ => by show k.val = o + 0; omega
    | ⟨1, _⟩ => by show l.val = 0 + l.val; omega
    | ⟨2, _⟩ => by show j.val = 0 + j.val; omega)

/-- A vector of 128 entries recast as a 1 x 128 row has entry (0, j) equal to entry j. -/
theorem row_cast_apply {α : Type} (b : SB.Idx → α) (hc : SB.ShapeCasts SR) (j : Fin 128) :
    shapeCast SR b hc (ix2 (0 : Fin 1) j) = b (ix1 j) :=
  shapeCast_apply b hc _ _ (by
    rw [Shape.rowMajor_val_one, Shape.rowMajor_val_two]
    show j.val = 0 * 128 + j.val
    omega)

/-- Putting the coordinate k back on axis 1 of a row index p gives (p, k). -/
theorem lift_row2 {n d : Nat} (h : (⟨2, ![n, d]⟩ : Shape).Reduces [1] ⟨1, ![n]⟩) (p : Fin n) (k : Fin d) :
    h.lift (ix1 p) k = ix2 p k := by
  funext a
  apply Fin.ext
  match a with
  | ⟨0, _⟩ => rfl
  | ⟨1, _⟩ => rfl

/-! ## The kernel's spelling -/

/-- (g x) w as a whole array: entry (i, j) is the sum over l of (sum over q of g (i, q) x (q, l)) w (l, j). -/
def gxw (gA : SG.Idx → EReal) (xA : SX.Idx → EReal) (w : SM.Idx → EReal) : SX.Idx → EReal :=
  fun i => ∑ l : Fin 128, (∑ q : Fin 10000, gA (ix2 (i 0) q) * xA (ix2 q l)) * w (ix2 l (i 1))

/-- The pre-activation as a whole array, from the operator, u, v, the features, the weight difference and the bias row. -/
def preArr (gA : SG.Idx → EReal) (uA vA xA : SX.Idx → EReal) (wdA : SM.Idx → EReal) (b2A : SR.Idx → EReal) : SX.Idx → EReal := fun i =>
  ((Ideal.ofBits .f32 0x40000000#32 * ∑ k : Fin 10000, gA (ix2 (i 0) k) * uA (ix2 k (i 1))) + vA i)
    + (∑ k : Fin 128, xA (ix2 (i 0) k) * wdA (ix2 k (i 1))) + b2A (ix2 (0 : Fin 1) (i 1))

/-- The largest entry of row r of a [10000, 128] array, from the word of minus infinity. -/
def rowMaxArr (P : SX.Idx → EReal) (r : Fin 10000) : EReal :=
  (Finset.univ : Finset (Fin 128)).fold max (Ideal.ofBits .f32 0xFF800000#32) (fun c => P (ix2 r c))

/-- The row-wise log-softmax of a [10000, 128] array, the shift added back to the logarithm. -/
def outArr (P : SX.Idx → EReal) : SX.Idx → EReal := fun i =>
  P i - (Ideal.log (∑ c : Fin 128, Ideal.exp (P (ix2 (i 0) c) - rowMaxArr P (i 0))) + rowMaxArr P (i 0))

/-- The kernel's spelling, entry by entry, is the specification's regrouped form. -/
theorem kernel_form (g : SG.Idx → EReal) (x : SX.Idx → EReal) (W : SW.Idx → EReal) (b : SB.Idx → EReal)
    (W1m W2m wd : SM.Idx → EReal) (b2 : SR.Idx → EReal)
    (h1 : ∀ l j : Fin 128, W1m (ix2 l j) = W (ix3 (1 : Fin 3) l j)) (h2 : ∀ l j : Fin 128, W2m (ix2 l j) = W (ix3 (2 : Fin 3) l j))
    (hwd : ∀ l j : Fin 128, wd (ix2 l j) = W (ix3 (0 : Fin 3) l j) - W (ix3 (2 : Fin 3) l j))
    (hb : ∀ j : Fin 128, b2 (ix2 (0 : Fin 1) j) = b (ix1 j)) (i : Fin 10000) (j : Fin 128) :
    outArr (preArr g (gxw g x W2m) (gxw g x W1m) x wd b2) (ix2 i j) = outK (preKA g x W b) i j := by
  have hpre : ∀ c : Fin 128, preArr g (gxw g x W2m) (gxw g x W1m) x wd b2 (ix2 i c) = preKA g x W b i c := by
    intro c
    show ((Ideal.ofBits .f32 0x40000000#32 * ∑ k : Fin 10000, g (ix2 i k) * (∑ l : Fin 128, (∑ q : Fin 10000, g (ix2 k q) * x (ix2 q l)) * W2m (ix2 l c)))
        + (∑ l : Fin 128, (∑ q : Fin 10000, g (ix2 i q) * x (ix2 q l)) * W1m (ix2 l c)))
        + (∑ k : Fin 128, x (ix2 i k) * wd (ix2 k c)) + b2 (ix2 (0 : Fin 1) c) = _
    simp only [h1, h2, hwd, hb]
    rfl
  have hmax : rowMaxArr (preArr g (gxw g x W2m) (gxw g x W1m) x wd b2) i = rowMaxA (preKA g x W b) i := by
    unfold rowMaxArr rowMaxA
    rw [ofBits_neg_inf]
    exact congrArg (fun f => (Finset.univ : Finset (Fin 128)).fold max ⊥ f) (funext hpre)
  show preArr g (gxw g x W2m) (gxw g x W1m) x wd b2 (ix2 i j)
      - (Ideal.log (∑ c : Fin 128, Ideal.exp (preArr g (gxw g x W2m) (gxw g x W1m) x wd b2 (ix2 i c)
          - rowMaxArr (preArr g (gxw g x W2m) (gxw g x W1m) x wd b2) i))
        + rowMaxArr (preArr g (gxw g x W2m) (gxw g x W1m) x wd b2) i) = _
  rw [hmax]
  simp only [hpre]
  rfl

end Cert.Cheb

end
-- ==== Proof.KernelValue.lean ====
/-
  What the two passes leave in their output arrays, as whole-array functions of the argument arrays.

  Pass one works on 25 blocks of 400 rows of the operator g. Block t reads rows 400 t … 400 t + 399 of g and the whole of
  x and of the two weight matrices, and writes rows 400 t … 400 t + 399 of u = (g x) W2 and of v = (g x) W1. The 25 blocks
  tile the 10000 rows, so after the pass the two arrays hold u and v everywhere.

  Pass two works on the same 25 blocks of rows: block t reads rows 400 t … 400 t + 399 of g, of x and of v, the whole of u,
  of the weight difference W0 - W2 and of the bias row, and writes the same rows of the result, the row-wise log-softmax of
  ((2 * g u) + v) + x (W0 - W2) + b. Again the blocks tile the rows.

  Between the passes nothing else is written: the operands pass two finds are the argument arrays, the matrices the host
  operations cut out of W before pass one, and the two arrays pass one left.
-/
import proofs.«139525_g1778116460694_cont_7to1_379_2_alg».proof.Proof.KernelRun
import proofs.«139525_g1778116460694_cont_7to1_379_2_alg».proof.Proof.Payload
import proofs.«139525_g1778116460694_cont_7to1_379_2_alg».proof.Proof.Forms

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload Cert.Cheb

theorem hz : (![0, 0] : Fin 2 → Nat) = fun _ => 0 := funext fun a => by fin_cases a <;> rfl

/-! ## Pass one: where its windows sit -/

/-- The block indices of pass one's windows at grid point t: the operator's and the two outputs' blocks move down the
    rows with t, the other operands are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of block t is row 400 t + p of the array. -/
def row0 (t : Fin cfg0.N) (p : Fin 400) : Fin 10000 :=
  ⟨t.val * 400 + p.val, by
    have h : t.val < grid0.N := t.isLt
    rw [N_0] at h
    have := p.isLt
    omega⟩

section Region0

variable (V : (c : Dev nD) → (b : Ref sig .tc) → Buf (Elt Ideal) ((c : Thread nD τ).loc b))

/-- The operator's block at point t, at (p, q): the operator at (400 t + p, q). -/
theorem gblk0_apply (c : Dev nD) (t : Fin cfg0.N) (p : Fin 400) (q : Fin 10000) :
    iblk0 V c 0 t (ix2 p q) = (V c main_arg1 : S10000x10000.Idx → EReal) (ix2 (row0 t p) q) := by
  show (V c main_arg1 : S10000x10000.Idx → EReal) (((cfg0.win 0).blk t).view.emb (ix2 p q)) = _
  refine congrArg (V c main_arg1 : S10000x10000.Idx → EReal) (funext fun a => Fin.ext ?_)
  obtain ⟨e0, e1, -⟩ := idx_facts0 t
  match a with
  | ⟨0, _⟩ => show win0_0.index t (0 : Fin 2) * 400 + 1 * p.val = t.val * 400 + p.val; omega
  | ⟨1, _⟩ => show win0_0.index t (1 : Fin 2) * 10000 + 1 * q.val = q.val; omega

/-- The features' block at any point is the whole array. -/
theorem xblk0_apply (c : Dev nD) (t : Fin cfg0.N) (y : S10000x128.Idx) :
    iblk0 V c 1 t y = (V c main_arg0 : S10000x128.Idx → EReal) y := by
  show (V c main_arg0 : S10000x128.Idx → EReal) (((cfg0.win 1).blk t).view.emb y) = _
  refine congrArg (V c main_arg0 : S10000x128.Idx → EReal) (funext fun a => Fin.ext ?_)
  obtain ⟨-, -, e0, e1, -⟩ := idx_facts0 t
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The weight matrices' blocks are the whole matrices. -/
theorem w1blk0_apply (c : Dev nD) (t : Fin cfg0.N) (y : S128x128.Idx) :
    iblk0 V c 2 t y = (V c main_call0_v3 : S128x128.Idx → EReal) y := by
  show (V c main_call0_v3 : S128x128.Idx → EReal) (((cfg0.win 2).blk t).view.emb y) = _
  refine congrArg (V c main_call0_v3 : S128x128.Idx → EReal) (funext fun a => Fin.ext ?_)
  obtain ⟨-, -, -, -, e0, e1, -⟩ := idx_facts0 t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem w2blk0_apply (c : Dev nD) (t : Fin cfg0.N) (y : S128x128.Idx) :
    iblk0 V c 3 t y = (V c main_call0_v5 : S128x128.Idx → EReal) y := by
  show (V c main_call0_v5 : S128x128.Idx → EReal) (((cfg0.win 3).blk t).view.emb y) = _
  refine congrArg (V c main_call0_v5 : S128x128.Idx → EReal) (funext fun a => Fin.ext ?_)
  obtain ⟨-, -, -, -, -, -, e0, e1, -⟩ := idx_facts0 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- What point t writes back through the first output is block t of (g x) W2. -/
theorem flushed0_4_eq (c : Dev nD) (t : Fin cfg0.N) :
    (dat0 V c).flushed 4 t = ((cfg0.win 4).blk t).view.read (Elt Ideal) (gxw (V c main_arg1) (V c main_arg0) (V c main_call0_v5)) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz, View.ld_unit_zero (S := S128x128) hz]
  funext y
  obtain ⟨p, j, rfl⟩ : ∃ (p : Fin 400) (j : Fin 128), y = ix2 p j := ⟨y 0, y 1, eq_ix2 y⟩
  show k0_pay2 (F := Ideal) (iblk0 V c 0 t) (iblk0 V c 1 t) (iblk0 V c 3 t) (ix2 p j)
    = gxw (V c main_arg1) (V c main_arg0) (V c main_call0_v5) (((cfg0.win 4).blk t).view.emb (ix2 p j))
  refine (pay2_apply (iblk0 V c 0 t) (iblk0 V c 1 t) (iblk0 V c 3 t) p j).trans ?_
  have he : ((cfg0.win 4).blk t).view.emb (ix2 p j) = (ix2 (row0 t p) j : S10000x128.Idx) := by
    obtain ⟨-, -, -, -, -, -, -, -, e0, e1, -⟩ := idx_facts0 t
    funext a; apply Fin.ext
    match a with
    | ⟨0, _⟩ => show win0_4.index t (0 : Fin 2) * 400 + 1 * p.val = t.val * 400 + p.val; omega
    | ⟨1, _⟩ => show win0_4.index t (1 : Fin 2) * 128 + 1 * j.val = j.val; omega
  rw [he]
  unfold gxw
  refine Finset.sum_congr rfl fun l _ => ?_
  rw [w2blk0_apply]
  refine congrArg (· * _) (Finset.sum_congr rfl fun q _ => ?_)
  rw [gblk0_apply, xblk0_apply]

/-- What point t writes back through the second output is block t of (g x) W1. -/
theorem flushed0_5_eq (c : Dev nD) (t : Fin cfg0.N) :
    (dat0 V c).flushed 5 t = ((cfg0.win 5).blk t).view.read (Elt Ideal) (gxw (V c main_arg1) (V c main_arg0) (V c main_call0_v3)) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz, View.ld_unit_zero (S := S128x128) hz]
  funext y
  obtain ⟨p, j, rfl⟩ : ∃ (p : Fin 400) (j : Fin 128), y = ix2 p j := ⟨y 0, y 1, eq_ix2 y⟩
  show k0_pay3 (F := Ideal) (iblk0 V c 0 t) (iblk0 V c 1 t) (iblk0 V c 2 t) (ix2 p j)
    = gxw (V c main_arg1) (V c main_arg0) (V c main_call0_v3) (((cfg0.win 5).blk t).view.emb (ix2 p j))
  refine (pay3_apply (iblk0 V c 0 t) (iblk0 V c 1 t) (iblk0 V c 2 t) p j).trans ?_
  have he : ((cfg0.win 5).blk t).view.emb (ix2 p j) = (ix2 (row0 t p) j : S10000x128.Idx) := by
    obtain ⟨-, -, -, -, -, -, -, -, -, -, e0, e1⟩ := idx_facts0 t
    funext a; apply Fin.ext
    match a with
    | ⟨0, _⟩ => show win0_5.index t (0 : Fin 2) * 400 + 1 * p.val = t.val * 400 + p.val; omega
    | ⟨1, _⟩ => show win0_5.index t (1 : Fin 2) * 128 + 1 * j.val = j.val; omega
  rw [he]
  unfold gxw
  refine Finset.sum_congr rfl fun l _ => ?_
  rw [w1blk0_apply]
  refine congrArg (· * _) (Finset.sum_congr rfl fun q _ => ?_)
  rw [gblk0_apply, xblk0_apply]

/-- An index of the first output's array lies in point t's block iff its row is one of the block's 400 rows. -/
theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v8_0).slice (win0_4.rect t)).set ↔ _
  rw [View.set_slice_whole, Rect.mem_set_unit]
  exact Iff.rfl

theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_call0_v8_1).slice (win0_5.rect t)).set ↔ _
  rw [View.set_slice_whole, Rect.mem_set_unit]
  exact Iff.rfl

/-- The block that holds row r. -/
def blockOf0 (r : Fin 10000) : Fin cfg0.N :=
  ⟨r.val / 400, by
    show _ < grid0.N
    rw [N_0]
    have := r.isLt
    omega⟩

/-- The 25 blocks of 400 rows cover the first output's array. -/
theorem cover0_4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  refine ⟨blockOf0 (i 0), flush0_4 _, ?_⟩
  rw [mem_blk0_4]
  obtain ⟨-, -, -, -, -, -, -, -, e0, e1, -⟩ := idx_facts0 (blockOf0 (i 0))
  have hv : (blockOf0 (i 0)).val = (i 0).val / 400 := rfl
  intro a
  match a with
  | ⟨0, _⟩ => show win0_4.index _ (0 : Fin 2) * 400 ≤ (i 0).val ∧ (i 0).val < win0_4.index _ (0 : Fin 2) * 400 + 400; omega
  | ⟨1, _⟩ => show win0_4.index _ (1 : Fin 2) * 128 ≤ (i 1).val ∧ (i 1).val < win0_4.index _ (1 : Fin 2) * 128 + 128; omega

theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨blockOf0 (i 0), flush0_5 _, ?_⟩
  rw [mem_blk0_5]
  obtain ⟨-, -, -, -, -, -, -, -, -, -, e0, e1⟩ := idx_facts0 (blockOf0 (i 0))
  have hv : (blockOf0 (i 0)).val = (i 0).val / 400 := rfl
  intro a
  match a with
  | ⟨0, _⟩ => show win0_5.index _ (0 : Fin 2) * 400 ≤ (i 0).val ∧ (i 0).val < win0_5.index _ (0 : Fin 2) * 400 + 400; omega
  | ⟨1, _⟩ => show win0_5.index _ (1 : Fin 2) * 128 ≤ (i 1).val ∧ (i 1).val < win0_5.index _ (1 : Fin 2) * 128 + 128; omega

/-- After pass one its first output array holds (g x) W2 … -/
theorem arr0_4 (c : Dev nD) : (dat0 V c).arrAt 4 cfg0.N = gxw (V c main_arg1) (V c main_arg0) (V c main_call0_v5) :=
  (dat0 V c).arrAt_eq_of_cover 4 _ (fun t _ => flushed0_4_eq V c t) cover0_4

/-- … and its second (g x) W1. -/
theorem arr0_5 (c : Dev nD) : (dat0 V c).arrAt 5 cfg0.N = gxw (V c main_arg1) (V c main_arg0) (V c main_call0_v3) :=
  (dat0 V c).arrAt_eq_of_cover 5 _ (fun t _ => flushed0_5_eq V c t) cover0_5

end Region0

/-! ## Pass two: where its windows sit

  Pass two again works on 25 blocks of 400 rows. Block t reads rows 400 t … 400 t + 399 of g, of x and of v, the whole of
  u, of the weight difference and of the bias row, and writes rows 400 t … 400 t + 399 of the result. -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 400 t + p of the array. -/
def row1 (t : Fin cfg1.N) (p : Fin 400) : Fin 10000 :=
  ⟨t.val * 400 + p.val, by
    have h : t.val < grid1.N := t.isLt
    rw [N_1] at h
    have := p.isLt
    omega⟩

/-- A block whose operands' entries are the arrays' entries of row r has the array's pre-activation of row r. -/
theorem preBlk_congr (v0 : FVec Ideal S400x10000 .f32) (v1 : FVec Ideal S10000x128 .f32) (v6 v9 : FVec Ideal S400x128 .f32)
    (v10 : FVec Ideal S128x128 .f32) (v14 : FVec Ideal S1x128 .f32)
    (gA : S10000x10000.Idx → EReal) (uA vA xA : S10000x128.Idx → EReal) (wdA : S128x128.Idx → EReal) (b2A : S1x128.Idx → EReal)
    (r : Fin 10000) (p : Fin 400)
    (h0 : ∀ k : Fin 10000, v0 (ix2 p k) = gA (ix2 r k)) (h1 : ∀ y, v1 y = uA y) (h6 : ∀ k : Fin 128, v6 (ix2 p k) = vA (ix2 r k))
    (h9 : ∀ k : Fin 128, v9 (ix2 p k) = xA (ix2 r k)) (h10 : ∀ y, v10 y = wdA y) (h14 : ∀ y, v14 y = b2A y) (cc : Fin 128) :
    preBlk v0 v1 v6 v9 v10 v14 (ix2 p cc) = preArr gA uA vA xA wdA b2A (ix2 r cc) := by
  show ((Ideal.ofBits .f32 0x40000000#32 * ∑ k : Fin 10000, v0 (ix2 p k) * v1 (ix2 k cc)) + v6 (ix2 p cc))
      + (∑ k : Fin 128, v9 (ix2 p k) * v10 (ix2 k cc)) + v14 (ix2 (0 : Fin 1) cc)
    = ((Ideal.ofBits .f32 0x40000000#32 * ∑ k : Fin 10000, gA (ix2 r k) * uA (ix2 k cc)) + vA (ix2 r cc))
      + (∑ k : Fin 128, xA (ix2 r k) * wdA (ix2 k cc)) + b2A (ix2 (0 : Fin 1) cc)
  simp only [h0, h1, h6, h9, h10, h14]

section Region1

variable (V : (c : Dev nD) → (b : Ref sig .tc) → Buf (Elt Ideal) ((c : Thread nD τ).loc b))

theorem gblk1_apply (c : Dev nD) (t : Fin cfg1.N) (p : Fin 400) (q : Fin 10000) :
    iblk1 V c 0 t (ix2 p q) = (V c main_arg1 : S10000x10000.Idx → EReal) (ix2 (row1 t p) q) := by
  show (V c main_arg1 : S10000x10000.Idx → EReal) (((cfg1.win 0).blk t).view.emb (ix2 p q)) = _
  refine congrArg (V c main_arg1 : S10000x10000.Idx → EReal) (funext fun a => Fin.ext ?_)
  obtain ⟨e0, e1, -⟩ := idx_facts1 t
  match a with
  | ⟨0, _⟩ => show win1_0.index t (0 : Fin 2) * 400 + 1 * p.val = t.val * 400 + p.val; omega
  | ⟨1, _⟩ => show win1_0.index t (1 : Fin 2) * 10000 + 1 * q.val = q.val; omega

theorem ublk1_apply (c : Dev nD) (t : Fin cfg1.N) (y : S10000x128.Idx) :
    iblk1 V c 1 t y = (V c main_call0_v8_0 : S10000x128.Idx → EReal) y := by
  show (V c main_call0_v8_0 : S10000x128.Idx → EReal) (((cfg1.win 1).blk t).view.emb y) = _
  refine congrArg (V c main_call0_v8_0 : S10000x128.Idx → EReal) (funext fun a => Fin.ext ?_)
  obtain ⟨-, -, e0, e1, -⟩ := idx_facts1 t
  match a with
  | ⟨0, _⟩ => show win1_1.index t (0 : Fin 2) * 10000 + 1 * (y 0).val = (y 0).val; omega
  | ⟨1, _⟩ => show win1_1.index t (1 : Fin 2) * 128 + 1 * (y 1).val = (y 1).val; omega

theorem xblk1_apply (c : Dev nD) (t : Fin cfg1.N) (p : Fin 400) (q : Fin 128) :
    iblk1 V c 2 t (ix2 p q) = (V c main_arg0 : S10000x128.Idx → EReal) (ix2 (row1 t p) q) := by
  show (V c main_arg0 : S10000x128.Idx → EReal) (((cfg1.win 2).blk t).view.emb (ix2 p q)) = _
  refine congrArg (V c main_arg0 : S10000x128.Idx → EReal) (funext fun a => Fin.ext ?_)
  obtain ⟨-, -, -, -, e0, e1, -⟩ := idx_facts1 t
  match a with
  | ⟨0, _⟩ => show win1_2.index t (0 : Fin 2) * 400 + 1 * p.val = t.val * 400 + p.val; omega
  | ⟨1, _⟩ => show win1_2.index t (1 : Fin 2) * 128 + 1 * q.val = q.val; omega

theorem vblk1_apply (c : Dev nD) (t : Fin cfg1.N) (p : Fin 400) (q : Fin 128) :
    iblk1 V c 3 t (ix2 p q) = (V c main_call0_v8_1 : S10000x128.Idx → EReal) (ix2 (row1 t p) q) := by
  show (V c main_call0_v8_1 : S10000x128.Idx → EReal) (((cfg1.win 3).blk t).view.emb (ix2 p q)) = _
  refine congrArg (V c main_call0_v8_1 : S10000x128.Idx → EReal) (funext fun a => Fin.ext ?_)
  obtain ⟨-, -, -, -, -, -, e0, e1, -⟩ := idx_facts1 t
  match a with
  | ⟨0, _⟩ => show win1_3.index t (0 : Fin 2) * 400 + 1 * p.val = t.val * 400 + p.val; omega
  | ⟨1, _⟩ => show win1_3.index t (1 : Fin 2) * 128 + 1 * q.val = q.val; omega

theorem wdblk1_apply (c : Dev nD) (t : Fin cfg1.N) (y : S128x128.Idx) :
    iblk1 V c 4 t y = (V c main_call0_v6 : S128x128.Idx → EReal) y := by
  show (V c main_call0_v6 : S128x128.Idx → EReal) (((cfg1.win 4).blk t).view.emb y) = _
  refine congrArg (V c main_call0_v6 : S128x128.Idx → EReal) (funext fun a => Fin.ext ?_)
  obtain ⟨-, -, -, -, -, -, -, -, e0, e1, -⟩ := idx_facts1 t
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem bblk1_apply (c : Dev nD) (t : Fin cfg1.N) (y : S1x128.Idx) :
    iblk1 V c 5 t y = (V c main_call0_v7 : S1x128.Idx → EReal) y := by
  show (V c main_call0_v7 : S1x128.Idx → EReal) (((cfg1.win 5).blk t).view.emb y) = _
  refine congrArg (V c main_call0_v7 : S1x128.Idx → EReal) (funext fun a => Fin.ext ?_)
  obtain ⟨-, -, -, -, -, -, -, -, -, -, e0, e1, -⟩ := idx_facts1 t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The block's pre-activation at (p, cc) is the whole array's at (400 t + p, cc). -/
theorem preBlk1_apply (c : Dev nD) (t : Fin cfg1.N) (p : Fin 400) (cc : Fin 128) :
    preBlk (iblk1 V c 0 t) (iblk1 V c 1 t) (iblk1 V c 3 t) (iblk1 V c 2 t) (iblk1 V c 4 t) (iblk1 V c 5 t) (ix2 p cc)
      = preArr (V c main_arg1) (V c main_call0_v8_0) (V c main_call0_v8_1) (V c main_arg0) (V c main_call0_v6) (V c main_call0_v7) (ix2 (row1 t p) cc) :=
  preBlk_congr (iblk1 V c 0 t) (iblk1 V c 1 t) (iblk1 V c 3 t) (iblk1 V c 2 t) (iblk1 V c 4 t) (iblk1 V c 5 t)
    (V c main_arg1) (V c main_call0_v8_0) (V c main_call0_v8_1) (V c main_arg0) (V c main_call0_v6) (V c main_call0_v7) (row1 t p) p
    (fun k => gblk1_apply V c t p k) (fun y => ublk1_apply V c t y) (fun k => vblk1_apply V c t p k) (fun k => xblk1_apply V c t p k)
    (fun y => wdblk1_apply V c t y) (fun y => bblk1_apply V c t y) cc

/-- What point t writes back through the output is block t of the log-softmax of the pre-activation. -/
theorem flushed1_6_eq (c : Dev nD) (t : Fin cfg1.N) :
    (dat1 V c).flushed 6 t = ((cfg1.win 6).blk t).view.read (Elt Ideal)
      (outArr (preArr (V c main_arg1) (V c main_call0_v8_0) (V c main_call0_v8_1) (V c main_arg0) (V c main_call0_v6) (V c main_call0_v7))) := by
  show (cfg1.win 6).cut (grid1.coords t) ((dat1 V c).after 6 t) = _
  rw [after1_6]
  unfold out1_6
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext y
  obtain ⟨p, j, rfl⟩ : ∃ (p : Fin 400) (j : Fin 128), y = ix2 p j := ⟨y 0, y 1, eq_ix2 y⟩
  show k1_pay1 (F := Ideal) (iblk1 V c 0 t) (iblk1 V c 1 t) (iblk1 V c 3 t) (iblk1 V c 2 t) (iblk1 V c 4 t) (iblk1 V c 5 t) (ix2 p j)
    = outArr (preArr (V c main_arg1) (V c main_call0_v8_0) (V c main_call0_v8_1) (V c main_arg0) (V c main_call0_v6) (V c main_call0_v7))
        (((cfg1.win 6).blk t).view.emb (ix2 p j))
  refine (pay_out_apply (iblk1 V c 0 t) (iblk1 V c 1 t) (iblk1 V c 3 t) (iblk1 V c 2 t) (iblk1 V c 4 t) (iblk1 V c 5 t) p j).trans ?_
  have he : ((cfg1.win 6).blk t).view.emb (ix2 p j) = (ix2 (row1 t p) j : S10000x128.Idx) := by
    obtain ⟨-, -, -, -, -, -, -, -, -, -, -, -, e0, e1⟩ := idx_facts1 t
    funext a; apply Fin.ext
    match a with
    | ⟨0, _⟩ => show win1_6.index t (0 : Fin 2) * 400 + 1 * p.val = t.val * 400 + p.val; omega
    | ⟨1, _⟩ => show win1_6.index t (1 : Fin 2) * 128 + 1 * j.val = j.val; omega
  rw [he]
  unfold outArr rowMax rowMaxArr
  simp only [preBlk1_apply]

theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v0).slice (win1_6.rect t)).set ↔ _
  rw [View.set_slice_whole, Rect.mem_set_unit]
  exact Iff.rfl

/-- The block that holds row r. -/
def blockOf1 (r : Fin 10000) : Fin cfg1.N :=
  ⟨r.val / 400, by
    show _ < grid1.N
    rw [N_1]
    have := r.isLt
    omega⟩

theorem cover1_6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  refine ⟨blockOf1 (i 0), flush1_6 _, ?_⟩
  rw [mem_blk1_6]
  obtain ⟨-, -, -, -, -, -, -, -, -, -, -, -, e0, e1⟩ := idx_facts1 (blockOf1 (i 0))
  have hv : (blockOf1 (i 0)).val = (i 0).val / 400 := rfl
  intro a
  match a with
  | ⟨0, _⟩ => show win1_6.index _ (0 : Fin 2) * 400 ≤ (i 0).val ∧ (i 0).val < win1_6.index _ (0 : Fin 2) * 400 + 400; omega
  | ⟨1, _⟩ => show win1_6.index _ (1 : Fin 2) * 128 ≤ (i 1).val ∧ (i 1).val < win1_6.index _ (1 : Fin 2) * 128 + 128; omega

/-- After pass two its output array holds the log-softmax of the pre-activation. -/
theorem arr1_6 (c : Dev nD) : (dat1 V c).arrAt 6 cfg1.N
    = outArr (preArr (V c main_arg1) (V c main_call0_v8_0) (V c main_call0_v8_1) (V c main_arg0) (V c main_call0_v6) (V c main_call0_v7)) :=
  (dat1 V c).arrAt_eq_of_cover 6 _ (fun t _ => flushed1_6_eq V c t) cover1_6

end Region1

/-! ## The run of the whole program: what each pass finds, and the result -/

section Whole

variable (m : (ℓ : Loc nD τ sig) → Buf (Elt Ideal) ℓ) (ρ : Dev nD → PrngReg)

/-- Slice k of the weights as a 128 x 128 matrix, as the host operations before pass one compute it. -/
abbrev w0M (c : Dev nD) : S128x128.Idx → EReal :=
  shapeCast S128x128 (extractStridedSlice S1x128x128 ![0, 0, 0] (m ((c : Thread nD τ).loc main_arg2)) slices_S3x128x128_S1x128x128_0_0_0) shapeCasts_S1x128x128_S128x128
abbrev w1M (c : Dev nD) : S128x128.Idx → EReal :=
  shapeCast S128x128 (extractStridedSlice S1x128x128 ![1, 0, 0] (m ((c : Thread nD τ).loc main_arg2)) slices_S3x128x128_S1x128x128_1_0_0) shapeCasts_S1x128x128_S128x128
abbrev w2M (c : Dev nD) : S128x128.Idx → EReal :=
  shapeCast S128x128 (extractStridedSlice S1x128x128 ![2, 0, 0] (m ((c : Thread nD τ).loc main_arg2)) slices_S3x128x128_S1x128x128_2_0_0) shapeCasts_S1x128x128_S128x128
/-- The bias as a 1 x 128 row. -/
abbrev bRow (c : Dev nD) : S1x128.Idx → EReal :=
  shapeCast S1x128 (m ((c : Thread nD τ).loc main_arg3)) shapeCasts_S128_S1x128

/-! ### Pass one's entry contents: the host operations before it -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_v3 (c : Dev nD) : (V1 m ρ c main_call0_v3 : S128x128.Idx → EReal) = w1M m c := by
  show StableHlo.after hostOps0 (W0 m ρ c) (Proc.devRef .tc main_call0_v3) = _
  after_results
  rfl

theorem V1_v5 (c : Dev nD) : (V1 m ρ c main_call0_v5 : S128x128.Idx → EReal) = w2M m c := by
  show StableHlo.after hostOps0 (W0 m ρ c) (Proc.devRef .tc main_call0_v5) = _
  after_results
  rfl

theorem V1_v6 (c : Dev nD) : (V1 m ρ c main_call0_v6 : S128x128.Idx → EReal) = subf (F := Ideal) (φ := .f32) (w0M m c) (w2M m c) := by
  show StableHlo.after hostOps0 (W0 m ρ c) (Proc.devRef .tc main_call0_v6) = _
  after_results
  rfl

theorem V1_v7 (c : Dev nD) : (V1 m ρ c main_call0_v7 : S1x128.Idx → EReal) = bRow m c := by
  show StableHlo.after hostOps0 (W0 m ρ c) (Proc.devRef .tc main_call0_v7) = _
  after_results
  rfl

/-! ### Pass two's entry contents: pass one's arrays, everything else as pass one found it -/

theorem V2_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_arg1 m ρ c)

theorem V2_arg0 (c : Dev nD) : V2 m ρ c main_arg0 = m ((c : Thread nD τ).loc main_arg0) :=
  ((W2_arr m ρ c 1).trans (((dat0 (V1 m ρ) c).arrAt_in 1 rfl _).trans (A_eq0 (V1 m ρ) c 1))).trans (V1_arg0 m ρ c)

/-- u = (g x) W2 -/
theorem V2_u (c : Dev nD) : (V2 m ρ c main_call0_v8_0 : S10000x128.Idx → EReal)
    = gxw (m ((c : Thread nD τ).loc main_arg1)) (m ((c : Thread nD τ).loc main_arg0)) (w2M m c) := by
  refine ((W2_arr m ρ c 4).trans (arr0_4 (V1 m ρ) c)).trans ?_
  rw [V1_arg1, V1_arg0, V1_v5]

/-- v = (g x) W1 -/
theorem V2_v (c : Dev nD) : (V2 m ρ c main_call0_v8_1 : S10000x128.Idx → EReal)
    = gxw (m ((c : Thread nD τ).loc main_arg1)) (m ((c : Thread nD τ).loc main_arg0)) (w1M m c) := by
  refine ((W2_arr m ρ c 5).trans (arr0_5 (V1 m ρ) c)).trans ?_
  rw [V1_arg1, V1_arg0, V1_v3]

theorem V2_v6 (c : Dev nD) : (V2 m ρ c main_call0_v6 : S128x128.Idx → EReal) = subf (F := Ideal) (φ := .f32) (w0M m c) (w2M m c) :=
  (W2_of_ne m ρ c main_call0_v6 (by decide)).trans (V1_v6 m ρ c)

theorem V2_v7 (c : Dev nD) : (V2 m ρ c main_call0_v7 : S1x128.Idx → EReal) = bRow m c :=
  (W2_of_ne m ρ c main_call0_v7 (by decide)).trans (V1_v7 m ρ c)

/-- The result array after the run, as one function of the argument arrays. -/
theorem result_eq (c : Dev nD) : (W3 m ρ c (Proc.devRef .tc main_v0) : S10000x128.Idx → EReal)
    = outArr (preArr (m ((c : Thread nD τ).loc main_arg1))
        (gxw (m ((c : Thread nD τ).loc main_arg1)) (m ((c : Thread nD τ).loc main_arg0)) (w2M m c))
        (gxw (m ((c : Thread nD τ).loc main_arg1)) (m ((c : Thread nD τ).loc main_arg0)) (w1M m c))
        (m ((c : Thread nD τ).loc main_arg0)) (subf (F := Ideal) (φ := .f32) (w0M m c) (w2M m c)) (bRow m c)) := by
  refine ((W3_arr m ρ c 6).trans (arr1_6 (V2 m ρ) c)).trans ?_
  rw [V2_arg1, V2_u, V2_v, V2_arg0, V2_v6, V2_v7]

/-- The result array at (i, j) is the specification's regrouped form of the argument arrays. -/
theorem result_apply (c : Dev nD) (i : Fin 10000) (j : Fin 128) :
    (W3 m ρ c (Proc.devRef .tc main_v0) : S10000x128.Idx → EReal) (ix2 i j)
      = outK (preKA (m ((c : Thread nD τ).loc main_arg1)) (m ((c : Thread nD τ).loc main_arg0))
          (m ((c : Thread nD τ).loc main_arg2)) (m ((c : Thread nD τ).loc main_arg3))) i j := by
  rw [result_eq]
  exact kernel_form _ _ _ _ (w1M m c) (w2M m c) _ (bRow m c)
    (fun l j => slice_mat_apply _ 1 1 rfl _ _ l j) (fun l j => slice_mat_apply _ 2 2 rfl _ _ l j)
    (fun l j => by
      show w0M m c (ix2 l j) - w2M m c (ix2 l j) = _
      rw [show w0M m c (ix2 l j) = _ from slice_mat_apply _ 0 0 rfl _ _ l j,
        show w2M m c (ix2 l j) = _ from slice_mat_apply _ 2 2 rfl _ _ l j])
    (fun j => row_cast_apply _ _ j) i j

end Whole

end Cert.KernelIdeal.KValue

end
-- ==== Proof.RefValue.lean ====
/-
  The reference's result, entry by entry, is the specification's recurrence form.

  The reference computes T1 = g x, then 2 g T1 - x, the three products with the slices of W, their sum plus the bias
  broadcast down the rows, and the log-softmax of that array row by row: the row maximum from minus infinity (once
  more against minus infinity, which changes nothing), the shifted entries, the logarithm of the sum of their
  exponentials, and the difference.
-/
import proofs.«139525_g1778116460694_cont_7to1_379_2_alg».proof.Proof.RefRead
import proofs.«139525_g1778116460694_cont_7to1_379_2_alg».proof.Proof.Forms
import proofs.«139525_g1778116460694_cont_7to1_379_2_alg».proof.Proof.LibBlocks

noncomputable section

open scoped BigOperators

namespace Cert.ReferenceIdeal.RefValue

open Idealize.ShloMosaic Idealize.ShloMosaic.ValueIdx Cert.ReferenceIdeal Cert.ReferenceIdeal.Gen Cert.ReferenceIdeal.ReadP Cert.Cheb

variable (x0 : (⟨S10000x128, .f32⟩ : BufTy).Contents (Elt Ideal)) (x1 : (⟨S10000x10000, .f32⟩ : BufTy).Contents (Elt Ideal))
  (x2 : (⟨S3x128x128, .f32⟩ : BufTy).Contents (Elt Ideal)) (x3 : (⟨S128, .f32⟩ : BufTy).Contents (Elt Ideal))

/-- The two contractions of the reference are plain rows-by-columns products. -/
theorem dotG_plain : dot_S10000x10000_S10000x128_S10000x128_1_0_0_1_n_n = DotDims.plain 10000 10000 128 := rfl
theorem dotW_plain : dot_S10000x128_S128x128_S10000x128_1_0_0_1_n_n = DotDims.plain 10000 128 128 := rfl

/-- A host product of an [n, k] array with a [k, 128] array at (i, j). -/
theorem hostdotG_apply (l : FVec Ideal S10000x10000 .f32) (r : FVec Ideal S10000x128 .f32) (i : Fin 10000) (j : Fin 128) :
    Host.dotGeneral dot_S10000x10000_S10000x128_S10000x128_1_0_0_1_n_n none l r (ix2 i j) = ∑ k : Fin 10000, l (ix2 i k) * r (ix2 k j) := by
  show FloatOps.dotGeneral _ none .single l r (ix2 i j) = _
  exact Cert.LibBlocks.dotGeneral_plain_apply _ dotG_plain none .single l r i j

theorem hostdotW_apply (l : FVec Ideal S10000x128 .f32) (r : FVec Ideal S128x128 .f32) (i : Fin 10000) (j : Fin 128) :
    Host.dotGeneral dot_S10000x128_S128x128_S10000x128_1_0_0_1_n_n none l r (ix2 i j) = ∑ k : Fin 128, l (ix2 i k) * r (ix2 k j) := by
  show FloatOps.dotGeneral _ none .single l r (ix2 i j) = _
  exact Cert.LibBlocks.dotGeneral_plain_apply _ dotW_plain none .single l r i j

/-! ## The pre-activation -/

theorem v0_apply (i : Fin 10000) (l : Fin 128) :
    val_main_v0 (F := Ideal) x0 x1 (ix2 i l) = ∑ p : Fin 10000, x1 (ix2 i p) * x0 (ix2 p l) := by
  unfold val_main_v0
  exact hostdotG_apply x1 x0 i l

theorem v4_apply (i : Fin 10000) (l : Fin 128) :
    val_main_v4 (F := Ideal) x0 x1 (ix2 i l)
      = Ideal.ofBits .f32 0x40000000#32 * (∑ k : Fin 10000, x1 (ix2 i k) * (∑ p : Fin 10000, x1 (ix2 k p) * x0 (ix2 p l))) - x0 (ix2 i l) := by
  rw [val_main_v4_apply, val_main_v3_apply, val_main_v2_apply, val_main_cst_apply]
  unfold val_main_v1
  rw [hostdotG_apply]
  simp only [v0_apply]
  rfl

theorem v6_apply (l j : Fin 128) : val_main_v6 (F := Ideal) x2 (ix2 l j) = x2 (ix3 (0 : Fin 3) l j) := by
  unfold val_main_v6 val_main_v5
  exact slice_mat_apply x2 0 0 rfl _ _ l j

theorem v9_apply (l j : Fin 128) : val_main_v9 (F := Ideal) x2 (ix2 l j) = x2 (ix3 (1 : Fin 3) l j) := by
  unfold val_main_v9 val_main_v8
  exact slice_mat_apply x2 1 1 rfl _ _ l j

theorem v13_apply (l j : Fin 128) : val_main_v13 (F := Ideal) x2 (ix2 l j) = x2 (ix3 (2 : Fin 3) l j) := by
  unfold val_main_v13 val_main_v12
  exact slice_mat_apply x2 2 2 rfl _ _ l j

theorem v17_apply (i : Fin 10000) (j : Fin 128) : val_main_v17 (F := Ideal) x3 (ix2 i j) = x3 (ix1 j) := by
  rw [val_main_v17_apply, val_main_v16_apply]
  exact congrArg x3 (funext fun a => Fin.ext (by match a with | ⟨0, _⟩ => rfl))

/-- The array the reference hands to the log-softmax is the recurrence's pre-activation. -/
theorem v18_apply (i : Fin 10000) (j : Fin 128) :
    val_main_v18 (F := Ideal) x0 x1 x2 x3 (ix2 i j) = preRA x1 x0 x2 x3 i j := by
  rw [val_main_v18_apply, val_main_v15_apply, val_main_v11_apply, v17_apply]
  unfold val_main_v7 val_main_v10 val_main_v14
  rw [hostdotW_apply, hostdotW_apply, hostdotW_apply]
  simp only [v0_apply, v4_apply, v6_apply, v9_apply, v13_apply]
  rfl

/-! ## The log-softmax -/

/-- The shift of row i: the row's largest entry. -/
theorem shift_apply (i : Fin 10000) :
    val_main_call0_v2 (F := Ideal) x0 x1 x2 x3 (ix1 i) = rowMaxA (preRA x1 x0 x2 x3) i := by
  rw [val_main_call0_v2_apply, val_main_call0_v1_apply, val_main_call0_cst_0_apply]
  unfold val_main_call0_v0
  rw [Host.reduce_eq_fold_single FloatOps.maximumf _ _ reducesTo_S10000x128_S10000_d1 (by decide) h_S_ (ix1 i)]
  show max (Ideal.ofBits .f32 0xFF800000#32)
      ((Finset.univ : Finset (Fin 128)).fold max (Ideal.ofBits .f32 0xFF800000#32) (val_main_v18 (F := Ideal) x0 x1 x2 x3 ∘ _)) = _
  rw [ofBits_neg_inf, max_eq_right bot_le]
  unfold rowMaxA
  refine congrArg (fun f => (Finset.univ : Finset (Fin 128)).fold max ⊥ f) (funext fun c => ?_)
  exact (congrArg (val_main_v18 (F := Ideal) x0 x1 x2 x3) (lift_row2 _ i c)).trans (v18_apply x0 x1 x2 x3 i c)

/-- The reference's result at (i, j). -/
theorem result_apply (i : Fin 10000) (j : Fin 128) :
    val_main_v19 (F := Ideal) x0 x1 x2 x3 (ix2 i j) = outR (preRA x1 x0 x2 x3) i j := by
  have hidx : ∀ c : Fin 128, idx_main_call0_v3 (idx_main_call0_v4 (ix2 i c)) = ix1 i := fun c =>
    funext fun a => Fin.ext (by match a with | ⟨0, _⟩ => rfl)
  have h5 : ∀ c : Fin 128, val_main_call0_v5 (F := Ideal) x0 x1 x2 x3 (ix2 i c)
      = preRA x1 x0 x2 x3 i c - rowMaxA (preRA x1 x0 x2 x3) i := by
    intro c
    rw [val_main_call0_v5_apply, val_main_call0_v4_apply, val_main_call0_v3_apply, hidx, shift_apply, v18_apply]
    rfl
  rw [val_main_v19_apply, h5, val_main_call0_v10_apply, val_main_call0_v9_apply, val_main_call0_v8_apply]
  rw [show idx_main_call0_v8 (idx_main_call0_v10 (ix2 i j)) = ix1 i from
    funext fun a => Fin.ext (by match a with | ⟨0, _⟩ => rfl)]
  rw [val_main_call0_v7_apply, val_main_call0_cst_1_apply]
  have h6 : ∀ c : Fin 128, val_main_call0_v6 (F := Ideal) x0 x1 x2 x3 (idx_main_call0_v7 (ix1 i) c)
      = Ideal.exp (preRA x1 x0 x2 x3 i c - rowMaxA (preRA x1 x0 x2 x3) i) := by
    intro c
    rw [show idx_main_call0_v7 (ix1 i) c = ix2 i c from
      funext fun a => Fin.ext (by match a with | ⟨0, _⟩ => rfl | ⟨1, _⟩ => rfl)]
    rw [val_main_call0_v6_apply, h5]
    rfl
  simp only [h6]
  show (preRA x1 x0 x2 x3 i j - rowMaxA (preRA x1 x0 x2 x3) i)
      - Ideal.log (Ideal.ofBits .f32 0x00000000#32 + ∑ c : Fin 128, Ideal.exp (preRA x1 x0 x2 x3 i c - rowMaxA (preRA x1 x0 x2 x3) i)) = _
  rw [Ideal.ofBits_zero_f32, zero_add]
  rfl

end Cert.ReferenceIdeal.RefValue

end
-- ==== Proof.Finite.lean ====
/-
  What the precondition says: every entry of the four argument arrays is a real number.

  The precondition is the conjunction, over the four arrays, of "every entry's absolute value is below plus infinity".
  On the extended reals the absolute value of either infinity is plus infinity, which is not below itself; so an entry
  that passes the test is a real number.
-/
import proofs.«139525_g1778116460694_cont_7to1_379_2_alg».proof.Proof.Spec
import proofs.«139525_g1778116460694_cont_7to1_379_2_alg».proof.Proof.Gen.Pre_finite_inputs
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below plus infinity is a real number. -/
theorem real_of_abs_lt_top (x : EReal) (h : Ideal.cmp .olt (max x (-x)) (Ideal.ofBits .f32 0x7F800000#32) = 1#1) :
    ∃ r : ℝ, x = (r : EReal) := by
  rw [Cert.Cheb.ofBits_pos_inf] at h
  induction x using EReal.rec with
  | bot => simp [Ideal.cmp] at h
  | top => simp [Ideal.cmp] at h
  | coe r => exact ⟨r, rfl⟩

/-- Under the precondition every entry of every argument array is a real number. -/
theorem real_of_pre (a0 : FVec Ideal S10000x128 .f32) (a1 : FVec Ideal S10000x10000 .f32) (a2 : FVec Ideal S3x128x128 .f32)
    (a3 : FVec Ideal S128 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨e0, e1⟩, e2⟩, e3⟩ := h0
  exact ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i),
    fun i => real_of_abs_lt_top _ (Host.reduce_andi_all _ _ _ _ _ e3 i)⟩

end Cert.Finite

end
-- ==== Proof.lean ====
/-
  A Chebyshev graph convolution of order three followed by a row-wise log-softmax, computed in two passes over the
  operator, against the textbook recurrence.

  With T1 = g x the reference computes log_softmax (x W0 + T1 W1 + (2 g T1 - x) W2 + b). The kernel streams the
  operator g twice: the first pass leaves u = T1 W2 and v = T1 W1, the second computes
  log_softmax (2 g u + v + x (W0 - W2) + b) block of rows by block of rows. On arrays of real numbers, which is what the
  precondition gives, g (T1 W2) = (g T1) W2 and x (W0 - W2) = x W0 - x W2, so the two pre-activations are one array of
  real numbers; and for a row p of real numbers with maximum m, p - (log (sum exp (p - m)) + m) and
  (p - m) - log (sum exp (p - m)) are the same real number.

  The frames of the two kernel programs are the generated ones; the reference's frame is its run with the result
  dropped; the idealization rewrote nothing, so there is nothing to preserve.
-/
import proofs.«139525_g1778116460694_cont_7to1_379_2_alg».proof.Defs
import proofs.«139525_g1778116460694_cont_7to1_379_2_alg».proof.Proof.Gen.Kernel
import proofs.«139525_g1778116460694_cont_7to1_379_2_alg».proof.Proof.Gen.Kernel.Frame
import proofs.«139525_g1778116460694_cont_7to1_379_2_alg».proof.Proof.Gen.KernelIdeal
import proofs.«139525_g1778116460694_cont_7to1_379_2_alg».proof.Proof.Gen.KernelIdeal.Frame
import proofs.«139525_g1778116460694_cont_7to1_379_2_alg».proof.Proof.Gen.ReferenceIdeal
import proofs.«139525_g1778116460694_cont_7to1_379_2_alg».proof.Proof.Gen.Pre_finite_inputs
import proofs.«139525_g1778116460694_cont_7to1_379_2_alg».proof.Proof.KernelValue
import proofs.«139525_g1778116460694_cont_7to1_379_2_alg».proof.Proof.RefValue
import proofs.«139525_g1778116460694_cont_7to1_379_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the same result array: at (i, j) the kernel's is the regrouped form of the
    argument arrays, the reference's the recurrence form, and on arrays of real numbers the two agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W3 m ρ c (Proc.devRef .tc Cert.KernelIdeal.main_v0),
    Cert.KernelIdeal.RunValue.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v19_eq, (hagree c).1, (hagree c).2.1, (hagree c).2.2.1, (hagree c).2.2.2]
  obtain ⟨h0, h1, h2, h3⟩ := Cert.Finite.real_of_pre _ _ _ _ (hpre c)
  funext i
  obtain ⟨a, b, rfl⟩ : ∃ (a : Fin 10000) (b : Fin 128), i = ix2 a b := ⟨i 0, i 1, eq_ix2 i⟩
  refine (Cert.ReferenceIdeal.RefValue.result_apply _ _ _ _ a b).trans ?_
  refine Eq.trans ?_ (Cert.KernelIdeal.KValue.result_apply m ρ c a b).symm
  exact (Cert.Cheb.outK_eq_outR _ _ _ _ h1 h0 h2 h3 a b).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
